-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  main_v8
-- ==== Kernel.lean ====
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S512x256 : Shape := ⟨2, ![512, 256]⟩
abbrev S2048x256 : Shape := ⟨2, ![2048, 256]⟩
abbrev S512x1 : Shape := ⟨2, ![512, 1]⟩
abbrev S1x2048 : Shape := ⟨2, ![1, 2048]⟩
abbrev S512x2048 : Shape := ⟨2, ![512, 2048]⟩

abbrev nBuf : Space → Nat
  | .hbm => 12
  | .vmem => 10
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x256, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S1x8192, .f32⟩
  | .hbm, ⟨11, _⟩ => ⟨S8192x8192, .f32⟩
  | .local _ .vmem, ⟨0, _⟩ => ⟨S512x256, .f32⟩
  | .local _ .vmem, ⟨1, _⟩ => ⟨S512x256, .f32⟩
  | .local _ .vmem, ⟨2, _⟩ => ⟨S2048x256, .f32⟩
  | .local _ .vmem, ⟨3, _⟩ => ⟨S2048x256, .f32⟩
  | .local _ .vmem, ⟨4, _⟩ => ⟨S512x1, .f32⟩
  | .local _ .vmem, ⟨5, _⟩ => ⟨S512x1, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  shapeCasts_S8192x1_S1x8192 : S8192x1.ShapeCasts S1x8192
  inb_S512x256_S512x256_0_0 : ∀ a, (![0, 0] : Fin 2 → Nat) a + S512x256.size a ≤ S512x256.size a
  h_S512x256 : 0 < S512x256.numel
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S512x1_S512x2048 : S512x1.Broadcasts S512x2048
  broadcasts_S1x2048_S512x2048 : S1x2048.Broadcasts S512x2048
  inb_S512x2048_S512x2048_0_0 : ∀ a, (![0, 0] : Fin 2 → Nat) a + S512x2048.size a ≤ S512x2048.size a
  h_S512x2048 : 0 < S512x2048.numel
  dot_S512x256_S2048x256_S512x2048_1_1_0_0_n_n_wf : DotDims.WF S512x256 S2048x256 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S8192x256.size a
  hwx0_0 : ∀ i : grid0.Coords, EltTy.bits .f32 = 32 ∨ (Rect.block (s := S8192x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S8192x256.size a
  hwx0_1 : ∀ i : grid0.Coords, EltTy.bits .f32 = 32 ∨ (Rect.block (s := S8192x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x8192.size a
  hwx0_3 : ∀ i : grid0.Coords, EltTy.bits .f32 = 32 ∨ (Rect.block (s := S1x8192) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S8192x8192.size a
  hwx0_4 : ∀ i : grid0.Coords, EltTy.bits .f32 = 32 ∨ (Rect.block (s := S8192x8192) S512x2048.size (cc0_transform_4 i) (hinb0_4 i)).WholeWords (EltTy.packing .f32)

variable [Facts₀]

def dot_S512x256_S2048x256_S512x2048_1_1_0_0_n_n : DotDims S512x256 S2048x256 S512x2048 where
  lhsContracting := [1]
  rhsContracting := [1]
  lhsNonContracting := [0]
  rhsNonContracting := [0]
  lhsBatch := []
  rhsBatch := []
  wf := dot_S512x256_S2048x256_S512x2048_1_1_0_0_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x256 : Shape := ⟨2, ![8192, 256]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 25
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x256, .f32⟩
  | .hbm, ⟨6, _⟩ => ⟨S_, .f32⟩
  | .hbm, ⟨7, _⟩ => ⟨S8192, .f32⟩
  | .hbm, ⟨8, _⟩ => ⟨S8192x8192, .f32⟩
  | .hbm, ⟨9, _⟩ => ⟨S8192x1, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x256_S8192x256_S8192x8192_1_1_0_0_n_n_wf : DotDims.WF S8192x256 S8192x256 S8192x8192 [1] [1] [0] [0] [] []

variable [Facts₀]

def dot_S8192x256_S8192x256_S8192x8192_1_1_0_0_n_n : DotDims S8192x256 S8192x256 S8192x8192 where
  lhsContracting := [1]
  rhsContracting := [1]
  lhsNonContracting := [0]
  rhsNonContracting := [0]
  lhsBatch := []
  rhsBatch := []
  wf := dot_S8192x256_S8192x256_S8192x8192_1_1_0_0_n_n_wf

class Facts : Prop extends Facts₀ where

variable [Facts]
-- ==== Proof.RbfSpec.lean ====
/-
  The Gaussian (radial basis function) kernel matrix of two families of 8192 points in 256 dimensions, entry by
  entry on the extended reals, by the expansion of the squared distance:

      K(p, q) = exp (-(max (|x_p|² + |y_q|² - 2 ⟨x_p, y_q⟩) 0)),

  where |x_p|² is the sum of the squares of point p's coordinates (started from the float zero, as a sum over a row
  is), ⟨x_p, y_q⟩ the sum over the 256 coordinates of the products, and the three float literals -1, 2 and 0 are kept
  as the words both programs print: the same word on both sides is never evaluated. Both programs compute exactly
  this function of the two argument arrays, so no law of the extended reals is needed to join them.
-/
import Idealize.ShloMosaic.PureOps.Ideal
import Idealize.ShloMosaic.Lib.ValueIdx

noncomputable section

open scoped BigOperators

namespace Cert.Rbf

open Idealize.ShloMosaic Idealize.ShloMosaic.ValueIdx

/-- The squared Euclidean norm of point `p`: the float zero a row sum starts from, plus the sum of the squares of
    the point's 256 coordinates. -/
def sqNorm (x : (⟨2, ![8192, 256]⟩ : Shape).Idx → EReal) (p : Fin 8192) : EReal :=
  Ideal.ofBits .f32 0x00000000#32 + ∑ k : Fin 256, x (ix2 p k) * x (ix2 p k)

/-- The inner product of point `p` of the first family with point `q` of the second. -/
def inner (x y : (⟨2, ![8192, 256]⟩ : Shape).Idx → EReal) (p q : Fin 8192) : EReal :=
  ∑ k : Fin 256, x (ix2 p k) * y (ix2 q k)

/-- The kernel of a squared norm `a`, a squared norm `b` and an inner product `d`:
    `exp (-1 · max (a + b - 2 · d) 0)`. -/
def gauss (a b d : EReal) : EReal :=
  Ideal.exp (Ideal.ofBits .f32 0xBF800000#32
    * max (a + b - Ideal.ofBits .f32 0x40000000#32 * d) (Ideal.ofBits .f32 0x00000000#32))

/-- Entry `(p, q)` of the kernel matrix. -/
def entry (x y : (⟨2, ![8192, 256]⟩ : Shape).Idx → EReal) (p q : Fin 8192) : EReal :=
  gauss (sqNorm x p) (sqNorm y q) (inner x y p q)

/-- The kernel matrix as one array, index by index. -/
def gram (x y : (⟨2, ![8192, 256]⟩ : Shape).Idx → EReal) : (⟨2, ![8192, 8192]⟩ : Shape).Idx → EReal :=
  fun i => entry x y (i 0) (i 1)

theorem gram_ix2 (x y : (⟨2, ![8192, 256]⟩ : Shape).Idx → EReal) (p q : Fin 8192) :
    gram x y (ix2 p q) = entry x y p q := rfl

end Cert.Rbf

end
-- ==== Proof.RefGram.lean ====
/-
  The reference computes the Gaussian kernel matrix. Read one operation at a time, entry (p, q) of its result is
  the exponential of minus the clamped squared distance, where the squared distance is assembled from the two row
  sums of squares (each broadcast along the other axis) and twice the contraction of the two arrays over their
  second axis. The only work is naming the indices: the row sum at (p, q) reads row p of the first array (row q of
  the second), and the contraction reads (p, k) against (q, k).
-/
import proofs.«127944_j65481071396583_1_alg».proof.Proof.Gen.ReferenceIdeal.Read
import proofs.«127944_j65481071396583_1_alg».proof.Proof.RbfSpec

noncomputable section

open scoped BigOperators

namespace Cert.ReferenceIdeal.RefValue

open Cert.ReferenceIdeal Cert.ReferenceIdeal.Read Idealize.ShloMosaic Idealize.ShloMosaic.ValueIdx

/-- The first array's row sum, broadcast to the matrix and read at (p, q), sums over row p. -/
theorem rowsum_x_idx (p q : Fin 8192) (k : Fin 256) :
    idx_main_v1 (idx_main_v5 (idx_main_v7 (ix2 p q))) k = ix2 p k :=
  funext fun a => Fin.ext (by match a with | ⟨0, _⟩ => rfl | ⟨1, _⟩ => rfl)

/-- The second array's row sum, broadcast to the matrix and read at (p, q), sums over row q. -/
theorem rowsum_y_idx (p q : Fin 8192) (k : Fin 256) :
    idx_main_v3 (idx_main_v6 (idx_main_v8 (ix2 p q))) k = ix2 q k :=
  funext fun a => Fin.ext (by match a with | ⟨0, _⟩ => rfl | ⟨1, _⟩ => rfl)

/-- The contraction at (p, q) reads the first array at (p, k) … -/
theorem cross_l_idx (p q : Fin 8192) (k : Fin 256) : lidx_main_v4 (ix2 p q) k = ix2 p k :=
  funext fun a => Fin.ext (by match a with | ⟨0, _⟩ => rfl | ⟨1, _⟩ => rfl)

/-- … and the second at (q, k). -/
theorem cross_r_idx (p q : Fin 8192) (k : Fin 256) : ridx_main_v4 (ix2 p q) k = ix2 q k :=
  funext fun a => Fin.ext (by match a with | ⟨0, _⟩ => rfl | ⟨1, _⟩ => rfl)

/-- The reference's result, as a function of its two argument arrays, is the kernel matrix. -/
theorem result_eq (x0 x1 : (⟨S8192x256, .f32⟩ : BufTy).Contents (Elt Ideal)) :
    val_main_v17 (F := Ideal) x0 x1 = Cert.Rbf.gram x0 x1 := by
  funext i
  obtain ⟨p, q, rfl⟩ : ∃ (p q : Fin 8192), i = ix2 p q := ⟨i 0, i 1, eq_ix2 i⟩
  rw [Cert.Rbf.gram_ix2]
  simp only [val_main_v17_apply, val_main_v16_apply, val_main_v15_apply, val_main_cst_3_apply, val_main_v14_apply,
    val_main_v13_apply, val_main_cst_2_apply, val_main_v12_apply, val_main_v9_apply, val_main_v7_apply,
    val_main_v5_apply, val_main_v1_apply, val_main_cst_apply, val_main_v0_apply, val_main_v8_apply,
    val_main_v6_apply, val_main_v3_apply, val_main_cst_0_apply, val_main_v2_apply, val_main_v11_apply,
    val_main_v10_apply, val_main_cst_1_apply, val_main_v4_apply,
    rowsum_x_idx, rowsum_y_idx, cross_l_idx, cross_r_idx]
  rfl

end Cert.ReferenceIdeal.RefValue

end
-- ==== Proof.KernelEntry.lean ====
/-
  One entry of what the kernel body stores. On a 512 × 2048 tile the body holds 512 points of the first family
  (512 × 256), 2048 points of the second (2048 × 256), the first points' squared norms as a column (512 × 1) and the
  second points' squared norms as a row (1 × 2048). Entry (p, q) of the stored tile is the Gaussian kernel of the
  p-th entry of the column, the q-th entry of the row, and the contraction over the 256 coordinates of row p of the
  first block with row q of the second: the narrowing of the two blocks before the matrix product changes no
  value on the extended reals, the product into the zero tile is just the sum of the products, and a column
  (a row) broadcast over the tile reads its one entry of that row (that column).
-/
import proofs.«127944_j65481071396583_1_alg».proof.Proof.Gen.KernelIdeal.Skeleton
import proofs.«127944_j65481071396583_1_alg».proof.Proof.RbfSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- A 512 × 1 column (through a shape cast to its own shape) broadcast over the 512 × 2048 tile reads, at
    (p, q), the column's entry p. -/
theorem col_apply (v : Vec Ideal S512x1 .f32) (p : Fin 512) (q : Fin 2048) :
    broadcastTo S512x2048 (shapeCast S512x1 v shapeCasts_S512x1_S512x1) broadcasts_S512x1_S512x2048 (ix2 p q)
      = v (ix2 p (0 : Fin 1)) := by
  rw [shapeCast_self]
  refine broadcastTo_apply v broadcasts_S512x1_S512x2048 (ix2 p q) (ix2 p (0 : Fin 1)) fun ax => ?_
  match ax with
  | ⟨0, _⟩ =>
    show p.val = if (512 : Nat) = 1 then 0 else p.val
    rw [if_neg (by decide)]
  | ⟨1, _⟩ =>
    show (0 : Nat) = if (1 : Nat) = 1 then 0 else q.val
    rw [if_pos rfl]

/-- A 1 × 2048 row (through a shape cast to its own shape) broadcast over the tile reads, at (p, q), the row's
    entry q. -/
theorem row_apply (v : Vec Ideal S1x2048 .f32) (p : Fin 512) (q : Fin 2048) :
    broadcastTo S512x2048 (shapeCast S1x2048 v shapeCasts_S1x2048_S1x2048) broadcasts_S1x2048_S512x2048 (ix2 p q)
      = v (ix2 (0 : Fin 1) q) := by
  rw [shapeCast_self]
  exact broadcastTo_1b_ab_apply v broadcasts_S1x2048_S512x2048 p q

/-! The matrix product contracts axis 1 of both blocks: at output (i₀, i₁) and contraction coordinate k it reads
    the left block at (i₀, k) and the right block at (i₁, k). -/

theorem lhs_axis0 (i : S512x2048.Idx) (q : dot_S512x256_S2048x256_S512x2048_1_1_0_0_n_n.contr.Idx) :
    (dot_S512x256_S2048x256_S512x2048_1_1_0_0_n_n.lhsIdx i q 0).val = (i 0).val := by
  unfold DotDims.lhsIdx
  rw [dif_neg (show ¬(0 : Fin S512x256.rank) ∈ dot_S512x256_S2048x256_S512x2048_1_1_0_0_n_n.lhsBatch by decide), dif_pos (show (0 : Fin S512x256.rank) ∈ dot_S512x256_S2048x256_S512x2048_1_1_0_0_n_n.lhsNonContracting by decide)]
  rfl
theorem lhs_axis1 (i : S512x2048.Idx) (q : dot_S512x256_S2048x256_S512x2048_1_1_0_0_n_n.contr.Idx) :
    (dot_S512x256_S2048x256_S512x2048_1_1_0_0_n_n.lhsIdx i q 1).val = (q ⟨0, by decide⟩).val :=
  dot_S512x256_S2048x256_S512x2048_1_1_0_0_n_n.lhsIdx_val_of_single rfl i q
theorem rhs_axis0 (i : S512x2048.Idx) (q : dot_S512x256_S2048x256_S512x2048_1_1_0_0_n_n.contr.Idx) :
    (dot_S512x256_S2048x256_S512x2048_1_1_0_0_n_n.rhsIdx i q 0).val = (i 1).val := by
  unfold DotDims.rhsIdx
  rw [dif_neg (show ¬(0 : Fin S2048x256.rank) ∈ dot_S512x256_S2048x256_S512x2048_1_1_0_0_n_n.rhsBatch by decide), dif_pos (show (0 : Fin S2048x256.rank) ∈ dot_S512x256_S2048x256_S512x2048_1_1_0_0_n_n.rhsNonContracting by decide)]
  rfl
theorem rhs_axis1 (i : S512x2048.Idx) (q : dot_S512x256_S2048x256_S512x2048_1_1_0_0_n_n.contr.Idx) :
    (dot_S512x256_S2048x256_S512x2048_1_1_0_0_n_n.rhsIdx i q 1).val = (q ⟨0, by decide⟩).val :=
  dot_S512x256_S2048x256_S512x2048_1_1_0_0_n_n.rhsIdx_val_of_single rfl i q

/-- The product of the two narrowed blocks into the zero tile, at (p, q): the sum over the 256 coordinates of
    row p of the first block times row q of the second. -/
theorem cross_apply (v0 : Vec Ideal S512x256 .f32) (v2 : Vec Ideal S2048x256 .f32) (p : Fin 512) (q : Fin 2048) :
    matmul (F := Ideal) dot_S512x256_S2048x256_S512x2048_1_1_0_0_n_n none (truncf .bf16 v0 bitsLt_bf16_f32)
        (truncf .bf16 v2 bitsLt_bf16_f32) (constant S512x2048 .f32 0x00000000#32) (ix2 p q)
      = ∑ k : Fin 256, v0 (ix2 p k) * v2 (ix2 q k) := by
  simp only [matmul]
  rw [Ideal.matmul_constant_zero_apply, ← Equiv.sum_comp (contrEquiv1 dot_S512x256_S2048x256_S512x2048_1_1_0_0_n_n 256 rfl rfl).symm]
  refine Finset.sum_congr rfl fun k _ => ?_
  have hk := contrEquiv1_symm_val dot_S512x256_S2048x256_S512x2048_1_1_0_0_n_n 256 rfl rfl k
  have el : dot_S512x256_S2048x256_S512x2048_1_1_0_0_n_n.lhsIdx (ix2 p q) ((contrEquiv1 dot_S512x256_S2048x256_S512x2048_1_1_0_0_n_n 256 rfl rfl).symm k) = ix2 p k := funext fun a => Fin.ext (by
    match a with
    | ⟨0, _⟩ => exact lhs_axis0 _ _
    | ⟨1, _⟩ => exact (lhs_axis1 _ _).trans hk)
  have er : dot_S512x256_S2048x256_S512x2048_1_1_0_0_n_n.rhsIdx (ix2 p q) ((contrEquiv1 dot_S512x256_S2048x256_S512x2048_1_1_0_0_n_n 256 rfl rfl).symm k) = ix2 q k := funext fun a => Fin.ext (by
    match a with
    | ⟨0, _⟩ => exact rhs_axis0 _ _
    | ⟨1, _⟩ => exact (rhs_axis1 _ _).trans hk)
  rw [el, er]
  rfl

/-- Entry (p, q) of the tile the body stores. -/
theorem pay_apply (v0 : Vec Ideal S512x256 .f32) (v2 : Vec Ideal S2048x256 .f32) (v5 : Vec Ideal S512x1 .f32)
    (v7 : Vec Ideal S1x2048 .f32) (p : Fin 512) (q : Fin 2048) :
    k0_pay1 (F := Ideal) v0 v2 v5 v7 (ix2 p q)
      = Cert.Rbf.gauss (v5 (ix2 p (0 : Fin 1))) (v7 (ix2 (0 : Fin 1) q)) (∑ k : Fin 256, v0 (ix2 p k) * v2 (ix2 q k)) := by
  unfold k0_pay1
  show Cert.Rbf.gauss
      (broadcastTo S512x2048 (shapeCast S512x1 v5 shapeCasts_S512x1_S512x1) broadcasts_S512x1_S512x2048 (ix2 p q))
      (broadcastTo S512x2048 (shapeCast S1x2048 v7 shapeCasts_S1x2048_S1x2048) broadcasts_S1x2048_S512x2048 (ix2 p q))
      (matmul (F := Ideal) dot_S512x256_S2048x256_S512x2048_1_1_0_0_n_n none (truncf .bf16 v0 bitsLt_bf16_f32)
        (truncf .bf16 v2 bitsLt_bf16_f32) (constant S512x2048 .f32 0x00000000#32) (ix2 p q)) = _
  rw [col_apply, row_apply, cross_apply]

end Cert.KernelIdeal.Body

end
-- ==== Proof.KernelNorms.lean ====
/-
  What the kernel's program computes before the grid runs: the squared norms of the points of each family, each
  as a sum over a row of the array of squares (started from the float zero). The first family's norms are laid out
  as a column (8192 × 1), the second family's as a row (1 × 8192), the row being the same column re-laid: entry
  (0, s) of the row is entry (s, 0) of the column, both at row-major position s. Read at an index, the column's
  entry r is the squared norm of point r of the first family and the row's entry s that of point s of the second.
-/
import proofs.«127944_j65481071396583_1_alg».proof.Proof.Gen.KernelIdeal.Frame
import proofs.«127944_j65481071396583_1_alg».proof.Proof.RbfSpec
import Idealize.ShloMosaic.Lib.StableHlo.Run
import Idealize.ShloMosaic.Lib.ValueIdx
import Idealize.ShloMosaic.Lib.Pipeline.Value
import Idealize.ShloMosaic.PureOps.Ideal.Laws

noncomputable section

open scoped BigOperators

namespace Cert.KernelIdeal.Norms

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The first family of points as launched. -/
abbrev xarr (c : Dev nD) : Vec Ideal S8192x256 .f32 := m ((c : Thread nD τ).loc main_arg0)
/-- The second family of points as launched. -/
abbrev yarr (c : Dev nD) : Vec Ideal S8192x256 .f32 := m ((c : Thread nD τ).loc main_arg1)

/-- The sum over a row of the array of squares, at row `r`, is the squared norm of point `r`. -/
theorem rowSum_apply (x : Vec Ideal S8192x256 .f32) (r : Fin 8192) :
    Host.reduceAdd (F := Ideal) (mulf x x) (constant S_ .f32 0x00000000#32) reducesTo_S8192x256_S8192_d1 h_S_ (ix1 r)
      = Cert.Rbf.sqNorm x r := by
  simp only [Host.reduceAdd, Ideal.hostReduceAdd_def]
  rw [Ideal.hostReduceAdd_single reducesTo_S8192x256_S8192_d1 (by decide)]
  unfold Cert.Rbf.sqNorm
  refine congrArg (_ + ·) (Finset.sum_congr rfl fun k _ => ?_)
  exact congrArg (fun j => x j * x j) (funext fun a => Fin.ext (by match a with | ⟨0, _⟩ => rfl | ⟨1, _⟩ => rfl))

/-- The column of the first family's squared norms, as the grid finds it. -/
theorem V_xsq (c : Dev nD) :
    (V m c main_v2 : S8192x1.Idx → EReal)
      = (broadcastInDim S8192x1 ![0] bcast_S8192_S8192x1_0
          (Host.reduceAdd (F := Ideal) (mulf (xarr m c) (xarr m c)) (constant S_ .f32 0x00000000#32) reducesTo_S8192x256_S8192_d1 h_S_)
          : S8192x1.Idx → EReal) := by
  dsimp only [V, hostOps0]
  after_results

/-- The row of the second family's squared norms, as the grid finds it: the column re-laid as a row. -/
theorem V_ysq (c : Dev nD) :
    (V m c main_v6 : S1x8192.Idx → EReal)
      = (shapeCast S1x8192 (broadcastInDim S8192x1 ![0] bcast_S8192_S8192x1_0
          (Host.reduceAdd (F := Ideal) (mulf (yarr m c) (yarr m c)) (constant S_ .f32 0x00000000#32) reducesTo_S8192x256_S8192_d1 h_S_))
          shapeCasts_S8192x1_S1x8192 : S1x8192.Idx → EReal) := by
  dsimp only [V, hostOps0]
  after_results
  rfl

/-- A row sum laid out as a column reads, at (r, 0), the sum of row r. -/
theorem col_of_sums (z : S8192.Idx → EReal) (r : Fin 8192) :
    broadcastInDim S8192x1 ![0] bcast_S8192_S8192x1_0 z (ix2 r (0 : Fin 1)) = z (ix1 r) :=
  broadcastInDim_apply _ bcast_S8192_S8192x1_0 z (ix2 r (0 : Fin 1)) (ix1 r) (fun a => match a with
    | ⟨0, _⟩ => by show r.val = if (8192 : Nat) = 1 then 0 else r.val; rw [if_neg (by decide)])

/-- Entry (r, 0) of the column is the squared norm of point r of the first family. -/
theorem V_xsq_apply (c : Dev nD) (r : Fin 8192) :
    (V m c main_v2 : S8192x1.Idx → EReal) (ix2 r (0 : Fin 1)) = Cert.Rbf.sqNorm (xarr m c) r := by
  rw [V_xsq, col_of_sums]
  exact rowSum_apply _ r

/-- Entry (0, s) of the row is the squared norm of point s of the second family. -/
theorem V_ysq_apply (c : Dev nD) (s : Fin 8192) :
    (V m c main_v6 : S1x8192.Idx → EReal) (ix2 (0 : Fin 1) s) = Cert.Rbf.sqNorm (yarr m c) s := by
  rw [V_ysq, shapeCast_apply _ shapeCasts_S8192x1_S1x8192 (ix2 (0 : Fin 1) s) (ix2 s (0 : Fin 1)) (by
    rw [Shape.rowMajor_val_two, Shape.rowMajor_val_two]
    show s.val * 1 + 0 = 0 * 8192 + s.val
    omega), col_of_sums]
  exact rowSum_apply _ s

end Cert.KernelIdeal.Norms

end
-- ==== Proof.KernelGram.lean ====
/-
  From tiles to the whole matrix. The grid has 4 × 16 points; the point with coordinates (j, i) works on the
  512 × 2048 tile of the 8192 × 8192 result whose rows start at 512·i and whose columns start at 2048·j. At that
  point the first family's window holds its points 512·i … 512·i + 511 (with their squared norms, as a column) and
  the second family's window its points 2048·j … 2048·j + 2047 (with their squared norms, as a row). So entry (p, q)
  of the tile the point writes back is the kernel of point 512·i + p of the first family and point 2048·j + q of
  the second, that is, entry (512·i + p, 2048·j + q) of the kernel matrix: each point writes back its own block of
  ONE matrix. The 64 tiles cover the result (row r lies in the tiles with i = r / 512, column s in those with
  j = s / 2048), so after the run the result array is the kernel matrix of the two arguments.
-/
import proofs.«127944_j65481071396583_1_alg».proof.Proof.Gen.KernelIdeal.Value
import proofs.«127944_j65481071396583_1_alg».proof.Proof.KernelEntry
import proofs.«127944_j65481071396583_1_alg».proof.Proof.KernelNorms

set_option maxRecDepth 16384

noncomputable section

open scoped BigOperators

namespace Cert.KernelIdeal.Tiles

open Cert.KernelIdeal Cert.KernelIdeal.Gen Idealize.ShloMosaic Idealize.ShloMosaic.TcCoe Idealize.SL.Sem
open Idealize.ShloMosaic.Pipeline (Dat)
open Idealize.ShloMosaic.ValueIdx Cert.KernelIdeal.Norms

variable (m : (ℓ : Loc nD τ sig) → Buf (Elt Ideal) ℓ) (ρ : Dev nD → PrngReg)

/-- The body reads and writes its whole buffers: offsets zero on both axes. -/
theorem zero_off : (![0, 0] : Fin 2 → Nat) = fun _ => 0 := funext fun a => by fin_cases a <;> rfl

/-- Where each window's block sits at a grid point, relative to the result's tile (decided over the 64 points):
    the first family's window and its norms' column follow the tile's row block, the second family's window and
    its norms' row follow the tile's column block, and there are 16 row blocks and 4 column blocks. -/
theorem tile_facts : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = win0_4.index t (1 : Fin 2)
    ∧ win0_4.index t (0 : Fin 2) ≤ 15 ∧ win0_4.index t (1 : Fin 2) ≤ 3 :=
  (by decide +kernel : ∀ t : Fin grid0.N, _)

/-- Every one of the 16 × 4 tiles is some grid point's. -/
theorem tile_onto : ∀ (q0 : Fin 16) (q1 : Fin 4), ∃ t : Fin cfg0.N, win0_4.index t = ![q0.val, q1.val] :=
  (by decide +kernel : ∀ (q0 : Fin 16) (q1 : Fin 4), ∃ t : Fin grid0.N, win0_4.index t = ![q0.val, q1.val])

/-- Entry `j` of the tile a point's body stores is the kernel matrix at the array index the tile puts `j` at. -/
theorem tile_entry (c : Dev nD) (t : Fin cfg0.N) (j : S512x2048.Idx) :
    k0_pay1 (F := Ideal) (iblk m c 0 t) (iblk m c 1 t) (iblk m c 2 t) (iblk m c 3 t) j
      = Cert.Rbf.gram (xarr m c) (yarr m c) (((cfg0.win 4).blk t).view.emb j) := by
  obtain ⟨p, q, rfl⟩ : ∃ (p : Fin 512) (q : Fin 2048), j = ix2 p q := ⟨j 0, j 1, eq_ix2 j⟩
  obtain ⟨f0, f1, f2, f3, f4, f5, f6, f7, f8, f9⟩ := tile_facts t
  refine (Cert.KernelIdeal.Body.pay_apply (iblk m c 0 t) (iblk m c 1 t) (iblk m c 2 t) (iblk m c 3 t) p q).trans ?_
  -- the array row and column of the entry
  have hP : ((((cfg0.win 4).blk t).view.emb (ix2 p q)) 0).val = win0_4.index t (0 : Fin 2) * 512 + 1 * p.val := rfl
  have hQ : ((((cfg0.win 4).blk t).view.emb (ix2 p q)) 1).val = win0_4.index t (1 : Fin 2) * 2048 + 1 * q.val := rfl
  -- the column of squared norms, read through its window
  have e2 : (iblk m c 2 t : Vec Ideal S512x1 .f32) (ix2 p (0 : Fin 1))
      = Cert.Rbf.sqNorm (xarr m c) ((((cfg0.win 4).blk t).view.emb (ix2 p q)) 0) := by
    show (V m c main_v2 : S8192x1.Idx → EReal) (((cfg0.win 2).blk t).view.emb (ix2 p (0 : Fin 1))) = _
    have hi : ((cfg0.win 2).blk t).view.emb (ix2 p (0 : Fin 1))
        = ix2 ((((cfg0.win 4).blk t).view.emb (ix2 p q)) 0) (0 : Fin 1) := funext fun a => Fin.ext (by
      match a with
      | ⟨0, _⟩ => show win0_2.index t (0 : Fin 2) * 512 + 1 * p.val = _; rw [hP]; omega
      | ⟨1, _⟩ => show win0_2.index t (1 : Fin 2) * 1 + 1 * 0 = 0; omega)
    rw [hi]
    exact V_xsq_apply m c _
  -- the row of squared norms, read through its window
  have e3 : (iblk m c 3 t : Vec Ideal S1x2048 .f32) (ix2 (0 : Fin 1) q)
      = Cert.Rbf.sqNorm (yarr m c) ((((cfg0.win 4).blk t).view.emb (ix2 p q)) 1) := by
    show (V m c main_v6 : S1x8192.Idx → EReal) (((cfg0.win 3).blk t).view.emb (ix2 (0 : Fin 1) q)) = _
    have hi : ((cfg0.win 3).blk t).view.emb (ix2 (0 : Fin 1) q)
        = ix2 (0 : Fin 1) ((((cfg0.win 4).blk t).view.emb (ix2 p q)) 1) := funext fun a => Fin.ext (by
      match a with
      | ⟨0, _⟩ => show win0_3.index t (0 : Fin 2) * 1 + 1 * 0 = 0; omega
      | ⟨1, _⟩ => show win0_3.index t (1 : Fin 2) * 2048 + 1 * q.val = _; rw [hQ]; omega)
    rw [hi]
    exact V_ysq_apply m c _
  -- the two families' blocks, read through their windows
  have e0 : ∀ k : Fin 256, (iblk m c 0 t : Vec Ideal S512x256 .f32) (ix2 p k)
      = xarr m c (ix2 ((((cfg0.win 4).blk t).view.emb (ix2 p q)) 0) k) := fun k => by
    show V m c main_arg0 (((cfg0.win 0).blk t).view.emb (ix2 p k)) = _
    rw [V_main_arg0]
    refine congrArg (xarr m c) (funext fun a => Fin.ext ?_)
    match a with
    | ⟨0, _⟩ => show win0_0.index t (0 : Fin 2) * 512 + 1 * p.val = _; rw [hP]; omega
    | ⟨1, _⟩ => show win0_0.index t (1 : Fin 2) * 256 + 1 * k.val = k.val; omega
  have e1 : ∀ k : Fin 256, (iblk m c 1 t : Vec Ideal S2048x256 .f32) (ix2 q k)
      = yarr m c (ix2 ((((cfg0.win 4).blk t).view.emb (ix2 p q)) 1) k) := fun k => by
    show V m c main_arg1 (((cfg0.win 1).blk t).view.emb (ix2 q k)) = _
    rw [V_main_arg1]
    refine congrArg (yarr m c) (funext fun a => Fin.ext ?_)
    match a with
    | ⟨0, _⟩ => show win0_1.index t (0 : Fin 2) * 2048 + 1 * q.val = _; rw [hQ]; omega
    | ⟨1, _⟩ => show win0_1.index t (1 : Fin 2) * 256 + 1 * k.val = k.val; omega
  rw [e2, e3, Finset.sum_congr rfl (fun k _ => by rw [e0 k, e1 k])]
  rfl

/-- What a point writes back is its block of the kernel matrix of the two arguments. -/
theorem flushed_eq (c : Dev nD) (t : Fin cfg0.N) :
    (dats m 0 c).flushed 4 t = ((cfg0.win 4).blk t).view.read (Elt Ideal) (Cert.Rbf.gram (xarr m c) (yarr m c)) := by
  rw [Cert.KernelIdeal.Value.flushed4]
  unfold out0_4
  rw [View.canon_unit_zero zero_off]
  simp only [View.ld_unit_zero (S := S512x256) zero_off, View.ld_unit_zero (S := S2048x256) zero_off,
    View.ld_unit_zero (S := S512x1) zero_off, View.ld_unit_zero (S := S1x2048) zero_off]
  funext j
  exact tile_entry m c t j

/-- An index of the result is in a point's tile iff each coordinate is in the tile's range on its axis. -/
theorem mem_tile (t : Fin cfg0.N) (i : S8192x8192.Idx) :
    i ∈ ((cfg0.win 4).blk t).view.set ↔ ∀ a : Fin 2, win0_4.index t a * S512x2048.size a ≤ (i a).val
      ∧ (i a).val < win0_4.index t a * S512x2048.size a + S512x2048.size a := by
  show i ∈ ((View.whole main_v7).slice (win0_4.rect t)).set ↔ _
  rw [View.set_slice_whole, Rect.mem_set_unit]
  exact Iff.rfl

/-- The tiles cover the result: index (r, s) lies in the tile with row block r / 512 and column block s / 2048. -/
theorem covered (i : S8192x8192.Idx) :
    ∃ t : Fin cfg0.N, (cfg0.win 4).flush t = true ∧ i ∈ ((cfg0.win 4).blk t).view.set := by
  have hi0 : (i 0).val < 8192 := (i 0).isLt
  have hi1 : (i 1).val < 8192 := (i 1).isLt
  obtain ⟨t, ht⟩ := tile_onto ⟨(i 0).val / 512, by omega⟩ ⟨(i 1).val / 2048, by omega⟩
  have q0 : win0_4.index t (0 : Fin 2) = (i 0).val / 512 := congrFun ht 0
  have q1 : win0_4.index t (1 : Fin 2) = (i 1).val / 2048 := congrFun ht 1
  refine ⟨t, flush0_4 t, ?_⟩
  rw [mem_tile]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 2048 ≤ (i 1).val ∧ (i 1).val < win0_4.index t (1 : Fin 2) * 2048 + 2048; omega

/-- The result array after the run is the kernel matrix of the two argument arrays. -/
theorem final (c : Dev nD) : (dats m 0 c).arrAt 4 cfg0.N = Cert.Rbf.gram (xarr m c) (yarr m c) :=
  (dats m 0 c).arrAt_eq_of_cover 4 _ (fun t _ => flushed_eq m c t) covered

/-- The kernel's run: it terminates with the result at the kernel matrix and the arguments unchanged. -/
theorem run : θ_run defs (onTc (τ := τ) (main (F := Ideal))) ⟨m, fun _ => 0, ρ⟩ fun r => ∀ c : Dev nD,
      r.2.mem ((c : Thread nD τ).loc main_v7) = Cert.Rbf.gram (xarr m c) (yarr m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.Tiles

end
-- ==== Proof.lean ====
/-
  The Gaussian kernel matrix of two families of 8192 points in 256 dimensions,

      K(p, q) = exp (-(max (|x_p|² + |y_q|² - 2 ⟨x_p, y_q⟩) 0)),

  computed two ways. The reference forms the two vectors of squared norms, the whole 8192 × 8192 matrix of inner
  products, and combines them entry by entry. The kernel forms the same squared norms before its grid runs, and then
  works tile by tile: on each 512 × 2048 tile it multiplies the 512 points of the first family by the 2048 points
  of the second (after narrowing both blocks, which changes no value on the extended reals), adds the norms'
  column and row broadcast over the tile, subtracts twice the product, clamps at zero, negates and exponentiates.

  On the extended reals both are literally the same function of the two argument arrays (Proof/RbfSpec.lean):
  the same sums in the same shape and the same three float words, so no algebraic law, and hence no finiteness
  of the inputs, is needed. Proof/RefGram.lean reads the reference's generated run one operation at a time to that
  function; Proof/KernelEntry.lean reads one entry of the tile the kernel body stores, Proof/KernelNorms.lean the
  squared norms as the grid finds them, and Proof/KernelGram.lean puts the 64 tiles together into the whole matrix
  over the generated blockwise value leg. The three frames are the generated ones (the reference's is its generated
  run with the result dropped); the idealization rewrote nothing, so `preserves` is trivial.
-/
import proofs.«127944_j65481071396583_1_alg».proof.Defs
import proofs.«127944_j65481071396583_1_alg».proof.Proof.Gen.Kernel
import proofs.«127944_j65481071396583_1_alg».proof.Proof.Gen.Kernel.Skeleton
import proofs.«127944_j65481071396583_1_alg».proof.Proof.Gen.Kernel.Launch
import proofs.«127944_j65481071396583_1_alg».proof.Proof.Gen.Kernel.Points
import proofs.«127944_j65481071396583_1_alg».proof.Proof.Gen.Kernel.Frame
import proofs.«127944_j65481071396583_1_alg».proof.Proof.Gen.KernelIdeal
import proofs.«127944_j65481071396583_1_alg».proof.Proof.Gen.KernelIdeal.Skeleton
import proofs.«127944_j65481071396583_1_alg».proof.Proof.Gen.KernelIdeal.Launch
import proofs.«127944_j65481071396583_1_alg».proof.Proof.Gen.KernelIdeal.Points
import proofs.«127944_j65481071396583_1_alg».proof.Proof.Gen.KernelIdeal.Frame
import proofs.«127944_j65481071396583_1_alg».proof.Proof.Gen.ReferenceIdeal
import proofs.«127944_j65481071396583_1_alg».proof.Proof.Gen.Pre_finite_inputs
import proofs.«127944_j65481071396583_1_alg».proof.Proof.Gen.KernelIdeal.Value
import proofs.«127944_j65481071396583_1_alg».proof.Proof.Gen.ReferenceIdeal.Run
import proofs.«127944_j65481071396583_1_alg».proof.Proof.Gen.ReferenceIdeal.Read
import proofs.«127944_j65481071396583_1_alg».proof.Proof.RbfSpec
import proofs.«127944_j65481071396583_1_alg».proof.Proof.RefGram
import proofs.«127944_j65481071396583_1_alg».proof.Proof.KernelEntry
import proofs.«127944_j65481071396583_1_alg».proof.Proof.KernelNorms
import proofs.«127944_j65481071396583_1_alg».proof.Proof.KernelGram
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference runs and leaves its arguments unchanged: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the two argument arrays, the kernel's result array and the reference's both end at
    the kernel matrix of those arrays. -/
theorem algebraic : Cert.algebraic_KernelIdeal_ReferenceIdeal := by
  intro m ρ m' ρ' _ hagree
  refine ⟨_, Cert.KernelIdeal.Tiles.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v17_eq _ _).trans (Cert.ReferenceIdeal.RefValue.result_eq _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
